-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x3 : Shape := ⟨3, ![16, 4096, 3]⟩
abbrev S_ : Shape := ⟨0, ![]⟩

class Facts : Prop where
  bcast_S_S16x4096x3 : S_.BroadcastsInDim S16x4096x3 (![] : Fin 0 → Fin S16x4096x3.rank)
  reducesTo_S16x4096x3_S_d0_1_2 : S16x4096x3.ReducesTo [0, 1, 2] S_
  h_S_ : 0 < S_.numel

variable [Facts]

def fn {F : FTy → Type} [FloatOps F] (main_arg0 : FVec F S16x4096x3 .f32) (main_arg1 : FVec F S16x4096x3 .f32) : IVec S_ 1 :=
  let main_v0 : FVec F S16x4096x3 .f32 := Host.absf main_arg0
  let main_cst : FVec F S_ .f32 := constant S_ .f32 0x7F800000#32
  let main_v1 : FVec F S16x4096x3 .f32 := broadcastInDim S16x4096x3 ![] bcast_S_S16x4096x3 main_cst
  let main_v2 : IVec S16x4096x3 1 := cmpf .olt main_v0 main_v1
  let main_c : IVec S_ 1 := constantI S_ 1 1#1
  let main_v3 : IVec S_ 1 := (fun x v => Host.reduce IntOp.andi x v reducesTo_S16x4096x3_S_d0_1_2 h_S_) main_v2 main_c
  let main_v4 : FVec F S16x4096x3 .f32 := Host.absf main_arg1
  let main_cst_0 : FVec F S_ .f32 := constant S_ .f32 0x7F800000#32
  let main_v5 : FVec F S16x4096x3 .f32 := broadcastInDim S16x4096x3 ![] bcast_S_S16x4096x3 main_cst_0
  let main_v6 : IVec S16x4096x3 1 := cmpf .olt main_v4 main_v5
  let main_c_1 : IVec S_ 1 := constantI S_ 1 1#1
  let main_v7 : IVec S_ 1 := (fun x v => Host.reduce IntOp.andi x v reducesTo_S16x4096x3_S_d0_1_2 h_S_) main_v6 main_c_1
  let main_v8 : IVec S_ 1 := andi main_v3 main_v7
  main_v8
-- ==== Kernel.lean ====
abbrev S16x4096x3 : Shape := ⟨3, ![16, 4096, 3]⟩
abbrev S16x3x4096 : Shape := ⟨3, ![16, 3, 4096]⟩
abbrev S16x4096x1 : Shape := ⟨3, ![16, 4096, 1]⟩
abbrev S16x1x4096 : Shape := ⟨3, ![16, 1, 4096]⟩
abbrev S1x256x3 : Shape := ⟨3, ![1, 256, 3]⟩
abbrev S1x3x4096 : Shape := ⟨3, ![1, 3, 4096]⟩
abbrev S1x256x1 : Shape := ⟨3, ![1, 256, 1]⟩
abbrev S1x1x4096 : Shape := ⟨3, ![1, 1, 4096]⟩
abbrev S256x3 : Shape := ⟨2, ![256, 3]⟩
abbrev S3x4096 : Shape := ⟨2, ![3, 4096]⟩
abbrev S256 : Shape := ⟨1, ![256]⟩
abbrev S256x1 : Shape := ⟨2, ![256, 1]⟩
abbrev S4096 : Shape := ⟨1, ![4096]⟩
abbrev S1x4096 : Shape := ⟨2, ![1, 4096]⟩
abbrev S256x4096 : Shape := ⟨2, ![256, 4096]⟩
abbrev S16x4096 : Shape := ⟨2, ![16, 4096]⟩
abbrev S_ : Shape := ⟨0, ![]⟩

abbrev nBuf : Space → Nat
  | .hbm => 16
  | .vmem => 8
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x3x4096, .f32⟩
  | .hbm, ⟨3, _⟩ => ⟨S16x4096x1, .f32⟩
  | .hbm, ⟨4, _⟩ => ⟨S16x1x4096, .f32⟩
  | .hbm, ⟨5, _⟩ => ⟨S16x4096, .f32⟩
  | .hbm, ⟨6, _⟩ => ⟨S16x4096, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S1x256x3, .f32⟩
  | .local _ .vmem, ⟨1, _⟩ => ⟨S1x256x3, .f32⟩
  | .local _ .vmem, ⟨2, _⟩ => ⟨S1x3x4096, .f32⟩
  | .local _ .vmem, ⟨3, _⟩ => ⟨S1x3x4096, .f32⟩
  | .local _ .vmem, ⟨4, _⟩ => ⟨S1x256x1, .f32⟩
  | .local _ .vmem, ⟨5, _⟩ => ⟨S1x256x1, .f32⟩
  | .local _ .vmem, ⟨6, _⟩ => ⟨S1x1x4096, .f32⟩
  | .local _ .vmem, ⟨7, _⟩ => ⟨S1x1x4096, .f32⟩
  | _, _ => ⟨S16x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 16], ![false, false]⟩

def k0_cond1 (i : grid0.Coords) : BitVec 1 :=
  let arg1 : BitVec 32 := BitVec.ofNat 32 (i 1).val
  let c0_i32 : BitVec 32 := 0#32
  let v24 : BitVec 1 := Scalar.cmpi .eq arg1 c0_i32
  let v25 : BitVec 32 := Scalar.extui v24
  let c0_i32_13 : BitVec 32 := 0#32
  let v26 : BitVec 1 := Scalar.cmpi .ne v25 c0_i32_13
  v26

def k0_cond2 (i : grid0.Coords) : BitVec 1 :=
  let arg1 : BitVec 32 := BitVec.ofNat 32 (i 1).val
  let c0_i32_14 : BitVec 32 := 0#32
  let v27 : BitVec 1 := Scalar.cmpi .ne arg1 c0_i32_14
  let v28 : BitVec 32 := Scalar.extui v27
  let c0_i32_15 : BitVec 32 := 0#32
  let v29 : BitVec 1 := Scalar.cmpi .ne v28 c0_i32_15
  v29

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S16x4096x3_S16x3x4096_0_2_1 : S16x4096x3.Transposes [0, 2, 1] S16x3x4096
  inb_S1x256x3_S1x256x3_0_0_0 : ∀ a, (![0, 0, 0] : Fin 3 → Nat) a + S1x256x3.size a ≤ S1x256x3.size a
  h_S1x256x3 : 0 < S1x256x3.numel
  shapeCasts_S1x256x3_S256x3 : S1x256x3.ShapeCasts S256x3
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  reduces_S256x3_S256 : S256x3.Reduces [1] S256
  shapeCasts_S256_S256x1 : S256.ShapeCasts S256x1
  reduces_S3x4096_S4096 : S3x4096.Reduces [0] S4096
  shapeCasts_S4096_S1x4096 : S4096.ShapeCasts S1x4096
  broadcasts_S256x1_S256x4096 : S256x1.Broadcasts S256x4096
  broadcasts_S1x4096_S256x4096 : S1x4096.Broadcasts S256x4096
  reduces_S256x4096_S256 : S256x4096.Reduces [1] S256
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S1x256x1 : S256x1.ShapeCasts S1x256x1
  reduces_S256x4096_S4096 : S256x4096.Reduces [0] S4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  shapeCasts_S16x4096x1_S16x4096 : S16x4096x1.ShapeCasts S16x4096
  shapeCasts_S16x1x4096_S16x4096 : S16x1x4096.ShapeCasts S16x4096
  reducesTo_S16x4096_S_d0_1 : S16x4096.ReducesTo [0, 1] S_
  h_S_ : 0 < S_.numel
  dot_S256x3_S3x4096_S256x4096_1_0_0_1_n_n_wf : DotDims.WF S256x3 S3x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x3.size a ≤ S16x4096x3.size a
  hwx0_0 : ∀ i : grid0.Coords, EltTy.bits .f32 = 32 ∨ (Rect.block (s := S16x4096x3) S1x256x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4096.size a ≤ S16x3x4096.size a
  hwx0_1 : ∀ i : grid0.Coords, EltTy.bits .f32 = 32 ∨ (Rect.block (s := S16x3x4096) S1x3x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S16x4096x1.size a
  hwx0_2 : ∀ i : grid0.Coords, EltTy.bits .f32 = 32 ∨ (Rect.block (s := S16x4096x1) S1x256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S16x1x4096.size a
  hwx0_3 : ∀ i : grid0.Coords, EltTy.bits .f32 = 32 ∨ (Rect.block (s := S16x1x4096) S1x1x4096.size (cc0_transform_3 i) (hinb0_3 i)).WholeWords (EltTy.packing .f32)

variable [Facts₀]

def dot_S256x3_S3x4096_S256x4096_1_0_0_1_n_n : DotDims S256x3 S3x4096 S256x4096 where
  lhsContracting := [1]
  rhsContracting := [0]
  lhsNonContracting := [0]
  rhsNonContracting := [1]
  lhsBatch := []
  rhsBatch := []
  wf := dot_S256x3_S3x4096_S256x4096_1_0_0_1_n_n_wf

abbrev win0_0 : Pipeline.Window sig grid0 :=
  Pipeline.Window.ofSpec (Memref.whole main_arg0) S1x256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x256x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) | ⟨_ + 4, h⟩ => absurd h (Nat.not_lt.2 (Nat.le_add_left _ _))

class Facts : Prop extends Facts₀ where

variable [Facts]
-- ==== ReferenceIdeal.lean ====
abbrev S16x4096x3 : Shape := ⟨3, ![16, 4096, 3]⟩
abbrev S_ : Shape := ⟨0, ![]⟩
abbrev S16x4096 : Shape := ⟨2, ![16, 4096]⟩
abbrev S16x4096x4096 : Shape := ⟨3, ![16, 4096, 4096]⟩
abbrev S16x4096x1 : Shape := ⟨3, ![16, 4096, 1]⟩
abbrev S16x1x4096 : Shape := ⟨3, ![16, 1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x4096x3, .f32⟩
  | .hbm, ⟨3, _⟩ => ⟨S_, .f32⟩
  | .hbm, ⟨4, _⟩ => ⟨S16x4096, .f32⟩
  | .hbm, ⟨5, _⟩ => ⟨S16x4096x3, .f32⟩
  | .hbm, ⟨6, _⟩ => ⟨S_, .f32⟩
  | .hbm, ⟨7, _⟩ => ⟨S16x4096, .f32⟩
  | .hbm, ⟨8, _⟩ => ⟨S16x4096x4096, .f32⟩
  | .hbm, ⟨9, _⟩ => ⟨S16x4096x1, .f32⟩
  | .hbm, ⟨10, _⟩ => ⟨S16x1x4096, .f32⟩
  | .hbm, ⟨11, _⟩ => ⟨S16x4096x4096, .f32⟩
  | .hbm, ⟨12, _⟩ => ⟨S16x4096x4096, .f32⟩
  | .hbm, ⟨13, _⟩ => ⟨S16x4096x4096, .f32⟩
  | .hbm, ⟨14, _⟩ => ⟨S_, .f32⟩
  | .hbm, ⟨15, _⟩ => ⟨S16x4096x4096, .f32⟩
  | .hbm, ⟨16, _⟩ => ⟨S16x4096x4096, .f32⟩
  | .hbm, ⟨17, _⟩ => ⟨S16x4096x4096, .f32⟩
  | .hbm, ⟨18, _⟩ => ⟨S_, .f32⟩
  | .hbm, ⟨19, _⟩ => ⟨S16x4096, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S16x4096, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S16x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  bcast_S16x4096_S16x1x4096_0_2 : S16x4096.BroadcastsInDim S16x1x4096 (![0, 2] : Fin 2 → Fin S16x1x4096.rank)
  bcast_S16x4096x1_S16x4096x4096_0_1_2 : S16x4096x1.BroadcastsInDim S16x4096x4096 (![0, 1, 2] : Fin 3 → Fin S16x4096x4096.rank)
  bcast_S16x1x4096_S16x4096x4096_0_1_2 : S16x1x4096.BroadcastsInDim S16x4096x4096 (![0, 1, 2] : Fin 3 → Fin S16x4096x4096.rank)
  bcast_S_S16x4096x4096 : S_.BroadcastsInDim S16x4096x4096 (![] : Fin 0 → Fin S16x4096x4096.rank)
  reducesTo_S16x4096x4096_S16x4096_d1 : S16x4096x4096.ReducesTo [1] S16x4096
  reducesTo_S16x4096_S_d0_1 : S16x4096.ReducesTo [0, 1] S_
  reducesTo_S16x4096x4096_S16x4096_d2 : S16x4096x4096.ReducesTo [2] S16x4096
  dot_S16x4096x3_S16x4096x3_S16x4096x4096_2_2_1_1_0_0_wf : DotDims.WF S16x4096x3 S16x4096x3 S16x4096x4096 [2] [2] [1] [1] [0] [0]

variable [Facts₀]

def dot_S16x4096x3_S16x4096x3_S16x4096x4096_2_2_1_1_0_0 : DotDims S16x4096x3 S16x4096x3 S16x4096x4096 where
  lhsContracting := [2]
  rhsContracting := [2]
  lhsNonContracting := [1]
  rhsNonContracting := [1]
  lhsBatch := [0]
  rhsBatch := [0]
  wf := dot_S16x4096x3_S16x4096x3_S16x4096x4096_2_2_1_1_0_0_wf

class Facts : Prop extends Facts₀ where

variable [Facts]
-- ==== Proof.BitsBody.lean ====
/-
  The kernel body of the pairwise-distance kernel, run once for each of its two control cases, for any float
  instance (here used at machine words).

  One grid point sees a tile of 256 rows of `x` (3 coordinates each) and all 4096 columns of the batch's transposed
  `y`. It forms the 256 x 4096 tile of squared distances, stores each row's minimum into the third window's buffer,
  and keeps the running column minimum in the fourth window's buffer: stored afresh at a batch's first row tile,
  merged by an elementwise minimum with what the buffer already holds at every later row tile.
-/
import proofs.«160833_j1580547973964_1_alg».proof.Proof.Gen.Kernel.Frame
import proofs.«160833_j1580547973964_1_alg».proof.Proof.Gen.Kernel.Skeleton

import Idealize.ShloMosaic.Lib.Pipeline.Value

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branches of the body, decided over the grid

The grid is 16 batches by 16 row tiles, walked row tile fastest: point `t` is batch `t / 16`, row tile `t % 16`.
The body's first conditional tests "row tile = 0", its second "row tile ≠ 0": exactly one of them holds at every point. -/

theorem first_iff : ∀ t : Fin cfg0.N, k0_cond1 (grid0.coords t) = 1#1 ↔ t.val % 16 = 0 :=
  (by decide +kernel : ∀ t : Fin grid0.N, k0_cond1 (grid0.coords t) = 1#1 ↔ t.val % 16 = 0)

theorem later_iff : ∀ t : Fin cfg0.N, k0_cond2 (grid0.coords t) = 1#1 ↔ ¬ t.val % 16 = 0 :=
  (by decide +kernel : ∀ t : Fin grid0.N, k0_cond2 (grid0.coords t) = 1#1 ↔ ¬ t.val % 16 = 0)

/-- All offsets of the whole-block accesses are zero. -/
theorem hz3 : (![0, 0, 0] : Fin 3 → Nat) = fun _ => 0 := by
  funext a; fin_cases a <;> rfl

section Whole
variable {S : Shape} {e : EltTy} {off : Fin S.rank → Nat}

omit [FloatOps F] in
/-- A whole memref at contents `X`, loaded through the whole-shape rectangle at zero offsets, reads `X`. -/
theorem readAt_unread (mr : Memref sig .tc .vmem S e) (h : mr.IsWhole) (X : S.Idx → Elt F e) (hz : off = fun _ => 0)
    (inb : ∀ a, off a + S.size a ≤ S.size a) :
    mr.view.readAt (Elt F) (Rect.unit off S.size inb).toLoadRect (h.unread X) = X := by
  rw [View.readAt_eq_ld, h.read_unread, View.ld_unit_zero hz]

/-- After one store through the whole-shape rectangle at zero offsets the buffer reads the stored value. -/
theorem read_one_store (v : View sig .tc .vmem S e) (f : v.ty.Contents (Elt F)) (hz : off = fun _ => 0)
    (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, View.mem_set_unit_zero hz inb y⟩),
    View.canon_unit_zero hz]

end Whole

/-! ## The body on any whole staging memrefs

At a batch's first row tile the body stores the tile's row minima into the third memref and the tile's column
minima into the fourth; at a later row tile it stores the row minima likewise and, into the fourth, the
elementwise minimum of what the fourth held and the tile's column minima. The two inputs are left as found. -/

theorem run_first (c : Dev nD) (i : grid0.Coords)
    (arg2 : Memref sig .tc .vmem S1x256x3 .f32) (harg2 : arg2.IsWhole) (arg3 : Memref sig .tc .vmem S1x3x4096 .f32) (harg3 : arg3.IsWhole)
    (arg4 : Memref sig .tc .vmem S1x256x1 .f32) (harg4 : arg4.IsWhole) (arg5 : Memref sig .tc .vmem S1x1x4096 .f32) (harg5 : arg5.IsWhole)
    (h1 : k0_cond1 i = 1#1) (h2 : ¬ k0_cond2 i = 1#1)
    (x0 : Vec F S1x256x3 .f32) (x1 : Vec F S1x3x4096 .f32) (E : Set ℕ) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k0_pay2 x0 x1) ∗ owns (c : Thread nD τ) arg5 fullShare (k0_pay4 x0 x1)) -∗ K ⟨⟩))
      ⊢ wp frame (wpE (defs₀ (F := F)) Variants.none c none) E (cc0__chamfer_kernel i arg2 harg2 arg3 harg3 arg4 harg4 arg5 harg5) K := by
  simp only [cc0__chamfer_kernel_eq_skeleton]; unfold cc0__chamfer_kernel_skel
  unfold owns
  iintro ⟨⟨%f0, %hf0, H0⟩, ⟨%f1, %hf1, H1⟩, ⟨%d2, %f2, -, H2⟩, ⟨%d3, %f3, -, H3⟩, Hk⟩
  obtain rfl := harg2.eq_unread hf0
  obtain rfl := harg3.eq_unread hf1
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    refine (read_one_store arg4.view f2 hz3 _ _).trans ?_
    rw [readAt_unread arg2 harg2 x0 hz3, readAt_unread arg3 harg3 x1 hz3]
  · iexists _; isplitr; swap; · iexact H3
    ipureintro
    refine (read_one_store arg5.view f3 hz3 _ _).trans ?_
    rw [readAt_unread arg2 harg2 x0 hz3, readAt_unread arg3 harg3 x1 hz3]

theorem run_later (c : Dev nD) (i : grid0.Coords)
    (arg2 : Memref sig .tc .vmem S1x256x3 .f32) (harg2 : arg2.IsWhole) (arg3 : Memref sig .tc .vmem S1x3x4096 .f32) (harg3 : arg3.IsWhole)
    (arg4 : Memref sig .tc .vmem S1x256x1 .f32) (harg4 : arg4.IsWhole) (arg5 : Memref sig .tc .vmem S1x1x4096 .f32) (harg5 : arg5.IsWhole)
    (h1 : ¬ k0_cond1 i = 1#1) (h2 : k0_cond2 i = 1#1)
    (x0 : Vec F S1x256x3 .f32) (x1 : Vec F S1x3x4096 .f32) (prev : Vec F S1x1x4096 .f32) (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare prev
        ∗ (iprop(owns (c : Thread nD τ) arg2 fullShare x0 ∗ owns (c : Thread nD τ) arg3 fullShare x1
            ∗ owns (c : Thread nD τ) arg4 fullShare (k0_pay2 x0 x1) ∗ owns (c : Thread nD τ) arg5 fullShare (k0_pay5 x0 x1 prev)) -∗ K ⟨⟩))
      ⊢ wp frame (wpE (defs₀ (F := F)) Variants.none c none) E (cc0__chamfer_kernel i arg2 harg2 arg3 harg3 arg4 harg4 arg5 harg5) K := by
  simp only [cc0__chamfer_kernel_eq_skeleton]; unfold cc0__chamfer_kernel_skel
  unfold owns
  iintro ⟨⟨%f0, %hf0, H0⟩, ⟨%f1, %hf1, H1⟩, ⟨%d2, %f2, -, H2⟩, ⟨%f3, %hf3, H3⟩, Hk⟩
  obtain rfl := harg2.eq_unread hf0
  obtain rfl := harg3.eq_unread hf1
  obtain rfl := harg5.eq_unread hf3
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    refine (read_one_store arg4.view f2 hz3 _ _).trans ?_
    rw [readAt_unread arg2 harg2 x0 hz3, readAt_unread arg3 harg3 x1 hz3]
  · iexists _; isplitr; swap; · iexact H3
    ipureintro
    refine (read_one_store arg5.view _ hz3 _ _).trans ?_
    rw [readAt_unread arg2 harg2 x0 hz3, readAt_unread arg3 harg3 x1 hz3, readAt_unread arg5 harg5 prev hz3]

end Cert.Kernel.Tile

end
-- ==== Proof.BitsRun.lean ====
/-
  The pipeline around the pairwise-distance body: what the carried column-minimum buffer holds point by point, the
  proof data, the body obligation at every point, the run of @main and the frame.
-/
import proofs.«160833_j1580547973964_1_alg».proof.Proof.BitsBody
import Idealize.ShloMosaic.Lib.Pipeline.FrameSuffix

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the column-minimum buffer holds after each point -/

/-- The fourth window's block index is the batch alone, so its staging buffer is carried from one row tile to the
    next and written back only after a batch's last row tile. After the body at position `n` it holds: at a
    batch's first row tile the tile's column minima; at a later one the elementwise minimum of what position
    `n - 1` left and the tile's column minima. -/
def colAt (c : Dev nD) : (n : ℕ) → n < cfg0.N → Vec F S1x1x4096 .f32
  | 0, hn => k0_pay4 (iblk m c 0 ⟨0, hn⟩) (iblk m c 1 ⟨0, hn⟩)
  | n + 1, hn =>
    if (n + 1) % 16 = 0 then k0_pay4 (iblk m c 0 ⟨n + 1, hn⟩) (iblk m c 1 ⟨n + 1, hn⟩)
    else k0_pay5 (iblk m c 0 ⟨n + 1, hn⟩) (iblk m c 1 ⟨n + 1, hn⟩) (colAt c n (Nat.lt_of_succ_lt hn))

theorem colAt_first (c : Dev nD) (t : Fin cfg0.N) (h : t.val % 16 = 0) :
    colAt m c t.val t.isLt = k0_pay4 (iblk m c 0 t) (iblk m c 1 t) := by
  obtain ⟨n, hn⟩ := t
  cases n with
  | zero => exact rfl
  | succ n => exact (if_pos h).trans rfl

theorem colAt_later (c : Dev nD) (t : Fin cfg0.N) (h : ¬t.val % 16 = 0) :
    colAt m c t.val t.isLt = k0_pay5 (iblk m c 0 t) (iblk m c 1 t)
      (colAt m c (t.val - 1) (Nat.lt_of_le_of_lt (Nat.sub_le _ _) t.isLt)) := by
  obtain ⟨n, hn⟩ := t
  cases n with
  | zero => exact (by exfalso; exact absurd (Nat.zero_mod _) h)
  | succ n => exact (if_neg h).trans rfl

/-! ## The pipeline's proof data -/

/-- The arrays as the region finds them; after the body at point `t` each input's buffer at its block, the
    row-minimum buffer at the tile's row minima, the column-minimum buffer at `colAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay2 (iblk m c 0 t) (iblk m c 1 t)
    | ⟨3, _⟩ => colAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = k0_pay2 (iblk m c 0 t) (iblk m c 1 t) := by dsimp only [dats]
theorem after0_3 (c : Dev nD) (t : Fin cfg0.N) : (dats m 0 c).after 3 t = colAt m c t.val t.isLt := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The body stores into the column-minimum buffer at every point: one of its two conditionals is taken. -/
theorem live3 : ∀ i : grid0.Coords, cfg0.idle 3 i = false :=
  (by decide +kernel : ∀ i : grid0.Coords, idle0 3 i = false)

/-- At a later row tile the column-minimum buffer holds what the body left at the point before: that point did
    not write it back. -/
theorem before0_3_later (c : Dev nD) (t : Fin cfg0.N) (h : ¬t.val % 16 = 0) (d) :
    (dats m 0 c).before 3 t d = colAt m c (t.val - 1) (Nat.lt_of_le_of_lt (Nat.sub_le _ _) t.isLt) := by
  have hN : t.val < 256 := lt_of_lt_of_eq t.isLt (show cfg0.N = 256 from N_0)
  rw [Dat.before_out_kept _ 3 rfl t (by omega)
    (Bool.eq_false_iff.mpr fun h' => by have := (flush0_3 _).mp h'; dsimp only at this; omega)
    live3 (fun _ _ => rfl)]
  dsimp only [dats]

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t)

set_option maxHeartbeats 800000 in
/-- The body at any point: the inputs' buffers hold their blocks; the closed forms say which case the point is
    in; at a later row tile the column-minimum buffer holds what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0 Dat.leavesExact
  rw [live3]
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  by_cases h0 : t.val % 16 = 0
  · rw [colAt_first m c t h0]
    iintro ⟨HΦ, Ho, ⟨%d0, H0⟩, ⟨%d1, H1⟩, ⟨%d2, H2⟩, ⟨%d3, H3⟩⟩
    iapply (run_first c (grid0.coords t) _ _ _ _ _ _ _ _ ((first_iff t).mpr h0) (fun h => ((later_iff t).mp h) h0)
      (iblk m c 0 t) (iblk m c 1 t) Set.univ _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [colAt_later m c t h0]
    simp only [before0_3_later m c t h0]
    iintro ⟨HΦ, Ho, ⟨%d0, H0⟩, ⟨%d1, H1⟩, ⟨%d2, H2⟩, ⟨%d3, H3⟩⟩
    iapply (run_later c (grid0.coords t) _ _ _ _ _ _ _ _ (fun h => h0 ((first_iff t).mp h)) ((later_iff t).mpr h0)
      (iblk m c 0 t) (iblk m c 1 t) _ Set.univ _)
    isplitl [H0]; · iexact H0
    isplitl [H1]; · iexact H1
    isplitl [H2]; · iexists _; iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the pipeline ends at what the library computes
    from the proof data, and every other unscoped buffer at what the host operations after the region leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end, nothing faults, and both argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Tile

end
-- ==== Proof.IdealBody.lean ====
/-
  The kernel body of the pairwise-distance kernel, run once for each of its two control cases, for any float
  instance (here used at the extended reals).

  One grid point sees a tile of 256 rows of `x` (3 coordinates each) and all 4096 columns of the batch's transposed
  `y`. It forms the 256 x 4096 tile of squared distances, stores each row's minimum into the third window's buffer,
  and keeps the running column minimum in the fourth window's buffer: stored afresh at a batch's first row tile,
  merged by an elementwise minimum with what the buffer already holds at every later row tile.
-/
import proofs.«160833_j1580547973964_1_alg».proof.Proof.Gen.KernelIdeal.Frame
import proofs.«160833_j1580547973964_1_alg».proof.Proof.Gen.KernelIdeal.Skeleton

import Idealize.ShloMosaic.Lib.Pipeline.Value

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branches of the body, decided over the grid

The grid is 16 batches by 16 row tiles, walked row tile fastest: point `t` is batch `t / 16`, row tile `t % 16`.
The body's first conditional tests "row tile = 0", its second "row tile ≠ 0": exactly one of them holds at every point. -/

theorem first_iff : ∀ t : Fin cfg0.N, k0_cond1 (grid0.coords t) = 1#1 ↔ t.val % 16 = 0 :=
  (by decide +kernel : ∀ t : Fin grid0.N, k0_cond1 (grid0.coords t) = 1#1 ↔ t.val % 16 = 0)

theorem later_iff : ∀ t : Fin cfg0.N, k0_cond2 (grid0.coords t) = 1#1 ↔ ¬ t.val % 16 = 0 :=
  (by decide +kernel : ∀ t : Fin grid0.N, k0_cond2 (grid0.coords t) = 1#1 ↔ ¬ t.val % 16 = 0)

/-- All offsets of the whole-block accesses are zero. -/
theorem hz3 : (![0, 0, 0] : Fin 3 → Nat) = fun _ => 0 := by
  funext a; fin_cases a <;> rfl

section Whole
variable {S : Shape} {e : EltTy} {off : Fin S.rank → Nat}

omit [FloatOps F] in
/-- A whole memref at contents `X`, loaded through the whole-shape rectangle at zero offsets, reads `X`. -/
theorem readAt_unread (mr : Memref sig .tc .vmem S e) (h : mr.IsWhole) (X : S.Idx → Elt F e) (hz : off = fun _ => 0)
    (inb : ∀ a, off a + S.size a ≤ S.size a) :
    mr.view.readAt (Elt F) (Rect.unit off S.size inb).toLoadRect (h.unread X) = X := by
  rw [View.readAt_eq_ld, h.read_unread, View.ld_unit_zero hz]

/-- After one store through the whole-shape rectangle at zero offsets the buffer reads the stored value. -/
theorem read_one_store (v : View sig .tc .vmem S e) (f : v.ty.Contents (Elt F)) (hz : off = fun _ => 0)
    (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, View.mem_set_unit_zero hz inb y⟩),
    View.canon_unit_zero hz]

end Whole

/-! ## The body on any whole staging memrefs

At a batch's first row tile the body stores the tile's row minima into the third memref and the tile's column
minima into the fourth; at a later row tile it stores the row minima likewise and, into the fourth, the
elementwise minimum of what the fourth held and the tile's column minima. The two inputs are left as found. -/

theorem run_first (c : Dev nD) (i : grid0.Coords)
    (arg2 : Memref sig .tc .vmem S1x256x3 .f32) (harg2 : arg2.IsWhole) (arg3 : Memref sig .tc .vmem S1x3x4096 .f32) (harg3 : arg3.IsWhole)
    (arg4 : Memref sig .tc .vmem S1x256x1 .f32) (harg4 : arg4.IsWhole) (arg5 : Memref sig .tc .vmem S1x1x4096 .f32) (harg5 : arg5.IsWhole)
    (h1 : k0_cond1 i = 1#1) (h2 : ¬ k0_cond2 i = 1#1)
    (x0 : Vec F S1x256x3 .f32) (x1 : Vec F S1x3x4096 .f32) (E : Set ℕ) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k0_pay2 x0 x1) ∗ owns (c : Thread nD τ) arg5 fullShare (k0_pay4 x0 x1)) -∗ K ⟨⟩))
      ⊢ wp frame (wpE (defs₀ (F := F)) Variants.none c none) E (cc0__chamfer_kernel i arg2 harg2 arg3 harg3 arg4 harg4 arg5 harg5) K := by
  simp only [cc0__chamfer_kernel_eq_skeleton]; unfold cc0__chamfer_kernel_skel
  unfold owns
  iintro ⟨⟨%f0, %hf0, H0⟩, ⟨%f1, %hf1, H1⟩, ⟨%d2, %f2, -, H2⟩, ⟨%d3, %f3, -, H3⟩, Hk⟩
  obtain rfl := harg2.eq_unread hf0
  obtain rfl := harg3.eq_unread hf1
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    refine (read_one_store arg4.view f2 hz3 _ _).trans ?_
    rw [readAt_unread arg2 harg2 x0 hz3, readAt_unread arg3 harg3 x1 hz3]
  · iexists _; isplitr; swap; · iexact H3
    ipureintro
    refine (read_one_store arg5.view f3 hz3 _ _).trans ?_
    rw [readAt_unread arg2 harg2 x0 hz3, readAt_unread arg3 harg3 x1 hz3]

theorem run_later (c : Dev nD) (i : grid0.Coords)
    (arg2 : Memref sig .tc .vmem S1x256x3 .f32) (harg2 : arg2.IsWhole) (arg3 : Memref sig .tc .vmem S1x3x4096 .f32) (harg3 : arg3.IsWhole)
    (arg4 : Memref sig .tc .vmem S1x256x1 .f32) (harg4 : arg4.IsWhole) (arg5 : Memref sig .tc .vmem S1x1x4096 .f32) (harg5 : arg5.IsWhole)
    (h1 : ¬ k0_cond1 i = 1#1) (h2 : k0_cond2 i = 1#1)
    (x0 : Vec F S1x256x3 .f32) (x1 : Vec F S1x3x4096 .f32) (prev : Vec F S1x1x4096 .f32) (E : Set ℕ) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare prev
        ∗ (iprop(owns (c : Thread nD τ) arg2 fullShare x0 ∗ owns (c : Thread nD τ) arg3 fullShare x1
            ∗ owns (c : Thread nD τ) arg4 fullShare (k0_pay2 x0 x1) ∗ owns (c : Thread nD τ) arg5 fullShare (k0_pay5 x0 x1 prev)) -∗ K ⟨⟩))
      ⊢ wp frame (wpE (defs₀ (F := F)) Variants.none c none) E (cc0__chamfer_kernel i arg2 harg2 arg3 harg3 arg4 harg4 arg5 harg5) K := by
  simp only [cc0__chamfer_kernel_eq_skeleton]; unfold cc0__chamfer_kernel_skel
  unfold owns
  iintro ⟨⟨%f0, %hf0, H0⟩, ⟨%f1, %hf1, H1⟩, ⟨%d2, %f2, -, H2⟩, ⟨%f3, %hf3, H3⟩, Hk⟩
  obtain rfl := harg2.eq_unread hf0
  obtain rfl := harg3.eq_unread hf1
  obtain rfl := harg5.eq_unread hf3
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    refine (read_one_store arg4.view f2 hz3 _ _).trans ?_
    rw [readAt_unread arg2 harg2 x0 hz3, readAt_unread arg3 harg3 x1 hz3]
  · iexists _; isplitr; swap; · iexact H3
    ipureintro
    refine (read_one_store arg5.view _ hz3 _ _).trans ?_
    rw [readAt_unread arg2 harg2 x0 hz3, readAt_unread arg3 harg3 x1 hz3, readAt_unread arg5 harg5 prev hz3]

end Cert.KernelIdeal.Tile

end
-- ==== Proof.IdealRun.lean ====
/-
  The pipeline around the pairwise-distance body: what the carried column-minimum buffer holds point by point, the
  proof data, the body obligation at every point, the run of @main and the frame.
-/
import proofs.«160833_j1580547973964_1_alg».proof.Proof.IdealBody
import Idealize.ShloMosaic.Lib.Pipeline.FrameSuffix

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the column-minimum buffer holds after each point -/

/-- The fourth window's block index is the batch alone, so its staging buffer is carried from one row tile to the
    next and written back only after a batch's last row tile. After the body at position `n` it holds: at a
    batch's first row tile the tile's column minima; at a later one the elementwise minimum of what position
    `n - 1` left and the tile's column minima. -/
def colAt (c : Dev nD) : (n : ℕ) → n < cfg0.N → Vec F S1x1x4096 .f32
  | 0, hn => k0_pay4 (iblk m c 0 ⟨0, hn⟩) (iblk m c 1 ⟨0, hn⟩)
  | n + 1, hn =>
    if (n + 1) % 16 = 0 then k0_pay4 (iblk m c 0 ⟨n + 1, hn⟩) (iblk m c 1 ⟨n + 1, hn⟩)
    else k0_pay5 (iblk m c 0 ⟨n + 1, hn⟩) (iblk m c 1 ⟨n + 1, hn⟩) (colAt c n (Nat.lt_of_succ_lt hn))

theorem colAt_first (c : Dev nD) (t : Fin cfg0.N) (h : t.val % 16 = 0) :
    colAt m c t.val t.isLt = k0_pay4 (iblk m c 0 t) (iblk m c 1 t) := by
  obtain ⟨n, hn⟩ := t
  cases n with
  | zero => exact rfl
  | succ n => exact (if_pos h).trans rfl

theorem colAt_later (c : Dev nD) (t : Fin cfg0.N) (h : ¬t.val % 16 = 0) :
    colAt m c t.val t.isLt = k0_pay5 (iblk m c 0 t) (iblk m c 1 t)
      (colAt m c (t.val - 1) (Nat.lt_of_le_of_lt (Nat.sub_le _ _) t.isLt)) := by
  obtain ⟨n, hn⟩ := t
  cases n with
  | zero => exact (by exfalso; exact absurd (Nat.zero_mod _) h)
  | succ n => exact (if_neg h).trans rfl

/-! ## The pipeline's proof data -/

/-- The arrays as the region finds them; after the body at point `t` each input's buffer at its block, the
    row-minimum buffer at the tile's row minima, the column-minimum buffer at `colAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay2 (iblk m c 0 t) (iblk m c 1 t)
    | ⟨3, _⟩ => colAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = k0_pay2 (iblk m c 0 t) (iblk m c 1 t) := by dsimp only [dats]
theorem after0_3 (c : Dev nD) (t : Fin cfg0.N) : (dats m 0 c).after 3 t = colAt m c t.val t.isLt := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The body stores into the column-minimum buffer at every point: one of its two conditionals is taken. -/
theorem live3 : ∀ i : grid0.Coords, cfg0.idle 3 i = false :=
  (by decide +kernel : ∀ i : grid0.Coords, idle0 3 i = false)

/-- At a later row tile the column-minimum buffer holds what the body left at the point before: that point did
    not write it back. -/
theorem before0_3_later (c : Dev nD) (t : Fin cfg0.N) (h : ¬t.val % 16 = 0) (d) :
    (dats m 0 c).before 3 t d = colAt m c (t.val - 1) (Nat.lt_of_le_of_lt (Nat.sub_le _ _) t.isLt) := by
  have hN : t.val < 256 := lt_of_lt_of_eq t.isLt (show cfg0.N = 256 from N_0)
  rw [Dat.before_out_kept _ 3 rfl t (by omega)
    (Bool.eq_false_iff.mpr fun h' => by have := (flush0_3 _).mp h'; dsimp only at this; omega)
    live3 (fun _ _ => rfl)]
  dsimp only [dats]

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t)

set_option maxHeartbeats 800000 in
/-- The body at any point: the inputs' buffers hold their blocks; the closed forms say which case the point is
    in; at a later row tile the column-minimum buffer holds what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0 Dat.leavesExact
  rw [live3]
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  by_cases h0 : t.val % 16 = 0
  · rw [colAt_first m c t h0]
    iintro ⟨HΦ, Ho, ⟨%d0, H0⟩, ⟨%d1, H1⟩, ⟨%d2, H2⟩, ⟨%d3, H3⟩⟩
    iapply (run_first c (grid0.coords t) _ _ _ _ _ _ _ _ ((first_iff t).mpr h0) (fun h => ((later_iff t).mp h) h0)
      (iblk m c 0 t) (iblk m c 1 t) Set.univ _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [colAt_later m c t h0]
    simp only [before0_3_later m c t h0]
    iintro ⟨HΦ, Ho, ⟨%d0, H0⟩, ⟨%d1, H1⟩, ⟨%d2, H2⟩, ⟨%d3, H3⟩⟩
    iapply (run_later c (grid0.coords t) _ _ _ _ _ _ _ _ (fun h => h0 ((first_iff t).mp h)) ((later_iff t).mpr h0)
      (iblk m c 0 t) (iblk m c 1 t) _ Set.univ _)
    isplitl [H0]; · iexact H0
    isplitl [H1]; · iexact H1
    isplitl [H2]; · iexists _; iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the pipeline ends at what the library computes
    from the proof data, and every other unscoped buffer at what the host operations after the region leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end, nothing faults, and both argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Tile

end
-- ==== Proof.PairDist.lean ====
/-
  The mathematics both programs compute, over the extended reals.

  For point sets `x`, `y` of shape [16, 4096, 3] (batch, point, coordinate) the squared distance between point `i`
  of `x` and point `j` of `y` in batch `b` is written as both programs write it,
      |x_i|² + |y_j|² − 2 · ⟨x_i, y_j⟩,
  the two norms and the inner product each a sum over the three coordinates. Both programs then take, per batch, the
  minimum over `j` for every `i` and the minimum over `i` for every `j`, and return the mean of the second array plus
  the mean of the first.
-/
import Idealize.ShloMosaic.PureOps.Ideal
import Idealize.ShloMosaic.PureOps.Ideal.Laws
import Idealize.ShloMosaic.PureOps.Reduce
import Idealize.ShloMosaic.Lib.ValueIdx

noncomputable section

namespace Cert.PairDist

open Idealize.ShloMosaic Idealize.ShloMosaic.ValueIdx

/-- The point sets' shape and the shape of an array with one entry per batch and point. -/
abbrev Pts : Shape := ⟨3, ![16, 4096, 3]⟩
abbrev Mat : Shape := ⟨2, ![16, 4096]⟩
abbrev Sc : Shape := ⟨0, ![]⟩

/-- The squared norm of point `i` of batch `b`. -/
def sq (x : Pts.Idx → EReal) (b : Fin 16) (i : Fin 4096) : EReal := ∑ k : Fin 3, x (ix3 b i k) * x (ix3 b i k)

/-- The inner product of point `i` of `x` and point `j` of `y` in batch `b`. -/
def ip (x y : Pts.Idx → EReal) (b : Fin 16) (i j : Fin 4096) : EReal := ∑ k : Fin 3, x (ix3 b i k) * y (ix3 b j k)

/-- The factor 2, as the float word both programs carry. -/
def two : EReal := Ideal.ofBits .f32 0x40000000#32

/-- The squared distance, grouped as both programs group it. -/
def pd (x y : Pts.Idx → EReal) (b : Fin 16) (i j : Fin 4096) : EReal := (sq x b i + sq y b j) - two * ip x y b i j

/-- For each point of `x`, the least squared distance to a point of `y`. -/
def rowMin (x y : Pts.Idx → EReal) (b : Fin 16) (i : Fin 4096) : EReal := ⨅ j : Fin 4096, pd x y b i j

/-- For each point of `y`, the least squared distance to a point of `x`. -/
def colMin (x y : Pts.Idx → EReal) (b : Fin 16) (j : Fin 4096) : EReal := ⨅ i : Fin 4096, pd x y b i j

/-- The two minima as arrays over (batch, point). -/
def rowMinArr (x y : Pts.Idx → EReal) : Mat.Idx → EReal := fun q => rowMin x y (q 0) (q 1)
def colMinArr (x y : Pts.Idx → EReal) : Mat.Idx → EReal := fun q => colMin x y (q 0) (q 1)

/-- The tail both programs share: the mean of the first array plus the mean of the second, each mean the host's sum
    from zero divided by the word for 65536. It is never opened: both sides apply it to equal arrays. -/
def lossOf (hr : Mat.ReducesTo [0, 1] Sc) (h0 : 0 < Sc.numel) (cm rm : FVec Ideal Mat .f32) : FVec Ideal Sc .f32 :=
  addf (Host.divf (Host.reduceAdd cm (constant (F := Ideal) Sc .f32 0x00000000#32) hr h0) (constant (F := Ideal) Sc .f32 0x47800000#32))
    (Host.divf (Host.reduceAdd rm (constant (F := Ideal) Sc .f32 0x00000000#32) hr h0) (constant (F := Ideal) Sc .f32 0x47800000#32))

/-- The word both programs start a minimum from is +∞. -/
theorem top_word : Ideal.ofBits .f32 0x7F800000#32 = (⊤ : EReal) := by simp [Ideal.ofBits, Ideal.ieee]

/-- A fold of `min` from +∞ over all of a finite index type is the infimum: both have the same lower bounds. -/
theorem fold_min_top {n : ℕ} (f : Fin n → EReal) : (Finset.univ : Finset (Fin n)).fold min ⊤ f = ⨅ i, f i := by
  refine eq_of_forall_le_iff fun c => ?_
  rw [Finset.le_fold_min, le_iInf_iff]
  exact ⟨fun h i => h.2 i (Finset.mem_univ _), fun h => ⟨le_top, fun i _ => h i⟩⟩

end Cert.PairDist

end
-- ==== Proof.TileValue.lean ====
/-
  One grid point's arithmetic, read at the extended reals: the 256 x 4096 tile of squared distances between the rows
  of the `x` tile and the columns of the transposed `y` block, its row minima, its column minima, and the merge of
  the column minima into what the carried buffer holds.
-/
import proofs.«160833_j1580547973964_1_alg».proof.Proof.Gen.KernelIdeal.Skeleton
import proofs.«160833_j1580547973964_1_alg».proof.Proof.PairDist
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.TileValue

open Cert.KernelIdeal Cert.KernelIdeal.Gen Cert.PairDist
open Idealize.ShloMosaic Idealize.ShloMosaic.ValueIdx

/-! ## Layout steps of the body, read at an index -/

section Layout
variable {α : Type}

/-- A vector cast to a column reads, at `(r, 0)`, the vector at `r`. -/
theorem col_keep {a : ℕ} (u : (⟨1, ![a]⟩ : Shape).Idx → α) (h : (⟨1, ![a]⟩ : Shape).ShapeCasts ⟨2, ![a, 1]⟩)
    (r : Fin a) (z : Fin 1) : shapeCast ⟨2, ![a, 1]⟩ u h (ix2 r z) = u (ix1 r) :=
  shapeCast_apply u h _ _ (by
    have hz : z.val = 0 := by omega
    rw [Shape.rowMajor_val_two, Shape.rowMajor_val_one]
    show r.val = r.val * 1 + z.val
    rw [hz, Nat.mul_one, Nat.add_zero])

/-- A column broadcast along the rows reads, at `(p, c)`, the column at `p`. -/
theorem bcol_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Layout

/-! ## The reductions and the matrix product of the body, read at an index -/

/-- The sum over the three coordinates of a [256, 3] tile, at row `r`. -/
theorem rowsum_apply (w : FVec Ideal S256x3 .f32) (h : S256x3.Reduces [1] S256) (hφ : FKind.Formats .f32)
    (hacc : (0x00000000#32 : BitVec 32) = FKind.add.neutral .f32 hφ) (r : Fin 256) :
    multiReduction .add [1] S256 w 0x00000000#32 h hφ hacc (ix1 r) = ∑ k : Fin 3, w (ix2 r k) :=
  (Ideal.multiReduction_add_single w _ h hφ hacc (ix1 r)).trans
    (Finset.sum_congr rfl fun k _ => congrArg w (funext fun a => Fin.ext (by match a with | ⟨0, _⟩ => rfl | ⟨1, _⟩ => rfl)))

/-- The sum over the three coordinates of a [3, 4096] tile, at column `j`. -/
theorem colsum_apply (w : FVec Ideal S3x4096 .f32) (h : S3x4096.Reduces [0] S4096) (hφ : FKind.Formats .f32)
    (hacc : (0x00000000#32 : BitVec 32) = FKind.add.neutral .f32 hφ) (j : Fin 4096) :
    multiReduction .add [0] S4096 w 0x00000000#32 h hφ hacc (ix1 j) = ∑ k : Fin 3, w (ix2 k j) :=
  (Ideal.multiReduction_add_single w _ h hφ hacc (ix1 j)).trans
    (Finset.sum_congr rfl fun k _ => congrArg w (funext fun a => Fin.ext (by match a with | ⟨0, _⟩ => rfl | ⟨1, _⟩ => rfl)))

/-- The minimum from +∞ along a row of a [256, 4096] tile is the infimum over the row. -/
theorem rowmin_apply (w : FVec Ideal S256x4096 .f32) (h : S256x4096.Reduces [1] S256) (hφ : FKind.Formats .f32)
    (hacc : (0x7F800000#32 : BitVec 32) = FKind.minimumf.neutral .f32 hφ) (r : Fin 256) :
    multiReduction .minimumf [1] S256 w 0x7F800000#32 h hφ hacc (ix1 r) = ⨅ j : Fin 4096, w (ix2 r j) := by
  refine (multiReduction_minimumf_eq_fold w _ h hφ hacc (ix1 r)).trans ((h.fold_filter_drop_single _ _ w (ix1 r)).trans ?_)
  show Finset.fold min (Ideal.ofBits .f32 0x7F800000#32) (w ∘ h.lift (ix1 r)) Finset.univ = _
  rw [top_word, fold_min_top]
  exact iInf_congr fun j => congrArg w (funext fun a => Fin.ext (by match a with | ⟨0, _⟩ => rfl | ⟨1, _⟩ => rfl))

/-- The minimum from +∞ down a column of a [256, 4096] tile is the infimum over the column. -/
theorem colmin_apply (w : FVec Ideal S256x4096 .f32) (h : S256x4096.Reduces [0] S4096) (hφ : FKind.Formats .f32)
    (hacc : (0x7F800000#32 : BitVec 32) = FKind.minimumf.neutral .f32 hφ) (j : Fin 4096) :
    multiReduction .minimumf [0] S4096 w 0x7F800000#32 h hφ hacc (ix1 j) = ⨅ r : Fin 256, w (ix2 r j) := by
  refine (multiReduction_minimumf_eq_fold w _ h hφ hacc (ix1 j)).trans ((h.fold_filter_drop_single _ _ w (ix1 j)).trans ?_)
  show Finset.fold min (Ideal.ofBits .f32 0x7F800000#32) (w ∘ h.lift (ix1 j)) Finset.univ = _
  rw [top_word, fold_min_top]
  exact iInf_congr fun r => congrArg w (funext fun a => Fin.ext (by match a with | ⟨0, _⟩ => rfl | ⟨1, _⟩ => rfl))

/-- Where the matrix product's operand indices sit: the left operand at (output row, contraction index), the right at
    (contraction index, output column). -/
theorem lhs_0 (i : S256x4096.Idx) (q : dot_S256x3_S3x4096_S256x4096_1_0_0_1_n_n.contr.Idx) : (dot_S256x3_S3x4096_S256x4096_1_0_0_1_n_n.lhsIdx i q 0).val = (i 0).val := by
  unfold DotDims.lhsIdx
  rw [dif_neg (show ¬(0 : Fin S256x3.rank) ∈ dot_S256x3_S3x4096_S256x4096_1_0_0_1_n_n.lhsBatch by decide), dif_pos (show (0 : Fin S256x3.rank) ∈ dot_S256x3_S3x4096_S256x4096_1_0_0_1_n_n.lhsNonContracting by decide)]
  rfl
theorem lhs_1 (i : S256x4096.Idx) (q : dot_S256x3_S3x4096_S256x4096_1_0_0_1_n_n.contr.Idx) : (dot_S256x3_S3x4096_S256x4096_1_0_0_1_n_n.lhsIdx i q 1).val = (q ⟨0, by decide⟩).val :=
  dot_S256x3_S3x4096_S256x4096_1_0_0_1_n_n.lhsIdx_val_of_single rfl i q
theorem rhs_0 (i : S256x4096.Idx) (q : dot_S256x3_S3x4096_S256x4096_1_0_0_1_n_n.contr.Idx) : (dot_S256x3_S3x4096_S256x4096_1_0_0_1_n_n.rhsIdx i q 0).val = (q ⟨0, by decide⟩).val :=
  dot_S256x3_S3x4096_S256x4096_1_0_0_1_n_n.rhsIdx_val_of_single rfl i q
theorem rhs_1 (i : S256x4096.Idx) (q : dot_S256x3_S3x4096_S256x4096_1_0_0_1_n_n.contr.Idx) : (dot_S256x3_S3x4096_S256x4096_1_0_0_1_n_n.rhsIdx i q 1).val = (i 1).val := by
  unfold DotDims.rhsIdx
  rw [dif_neg (show ¬(1 : Fin S3x4096.rank) ∈ dot_S256x3_S3x4096_S256x4096_1_0_0_1_n_n.rhsBatch by decide), dif_pos (show (1 : Fin S3x4096.rank) ∈ dot_S256x3_S3x4096_S256x4096_1_0_0_1_n_n.rhsNonContracting by decide)]
  rfl

/-- The [256, 3] by [3, 4096] product into the zero tile, at `(r, j)`: the sum over the three coordinates. -/
theorem mm_apply (a : FVec Ideal S256x3 .f32) (b : FVec Ideal S3x4096 .f32) (r : Fin 256) (j : Fin 4096) :
    matmul dot_S256x3_S3x4096_S256x4096_1_0_0_1_n_n none a b (constant S256x4096 .f32 0x00000000#32) (ix2 r j) = ∑ k : Fin 3, a (ix2 r k) * b (ix2 k j) := by
  simp only [matmul]
  rw [Ideal.matmul_constant_zero_apply, ← Equiv.sum_comp (ValueIdx.contrEquiv1 dot_S256x3_S3x4096_S256x4096_1_0_0_1_n_n 3 rfl rfl).symm]
  refine Finset.sum_congr rfl fun k _ => ?_
  have hk := ValueIdx.contrEquiv1_symm_val dot_S256x3_S3x4096_S256x4096_1_0_0_1_n_n 3 rfl rfl k
  have el : dot_S256x3_S3x4096_S256x4096_1_0_0_1_n_n.lhsIdx (ix2 r j) ((ValueIdx.contrEquiv1 dot_S256x3_S3x4096_S256x4096_1_0_0_1_n_n 3 rfl rfl).symm k) = ix2 r k := funext fun c => Fin.ext (by
    match c with
    | ⟨0, _⟩ => exact lhs_0 _ _
    | ⟨1, _⟩ => exact (lhs_1 _ _).trans hk)
  have er : dot_S256x3_S3x4096_S256x4096_1_0_0_1_n_n.rhsIdx (ix2 r j) ((ValueIdx.contrEquiv1 dot_S256x3_S3x4096_S256x4096_1_0_0_1_n_n 3 rfl rfl).symm k) = ix2 k j := funext fun c => Fin.ext (by
    match c with
    | ⟨0, _⟩ => exact (rhs_0 _ _).trans hk
    | ⟨1, _⟩ => exact rhs_1 _ _)
  rw [el, er]

/-! ## The tile of squared distances and the values the body stores -/

variable (v0 : Vec Ideal S1x256x3 .f32) (v2 : Vec Ideal S1x3x4096 .f32)

/-- The tile's entry at row `r` of the `x` tile and column `j` of the transposed `y` block. -/
def tilePd (r : Fin 256) (j : Fin 4096) : EReal :=
  ((∑ k : Fin 3, v0 (ix3 (0 : Fin 1) r k) * v0 (ix3 (0 : Fin 1) r k)) + ∑ k : Fin 3, v2 (ix3 (0 : Fin 1) k j) * v2 (ix3 (0 : Fin 1) k j))
    - two * ∑ k : Fin 3, v0 (ix3 (0 : Fin 1) r k) * v2 (ix3 (0 : Fin 1) k j)

set_option backward.isDefEq.respectTransparency.types false in
/-- The body's distance tile at `(r, j)`: the row's squared norm (broadcast along the row) plus the column's
    (broadcast down the column) minus twice the product tile's entry. -/
theorem pay1_apply (r : Fin 256) (j : Fin 4096) : k0_pay1 (F := Ideal) v0 v2 (ix2 r j) = tilePd v0 v2 r j := by
  unfold k0_pay1 tilePd
  rw [subf_apply, addf_apply, mulf_apply, broadcast_apply]
  rw [bcol_apply, col_keep, rowsum_apply, broadcastTo_1b_ab_apply, shapeCast_a_1a_apply, colsum_apply, mm_apply]
  simp only [mulf_apply, shapeCast_1ab_ab_apply]
  rfl

set_option backward.isDefEq.respectTransparency.types false in
/-- What the body stores for the row minima: at row `r`, the infimum of the tile's row. -/
theorem pay2_apply (r : Fin 256) :
    k0_pay2 (F := Ideal) v0 v2 (ix3 (0 : Fin 1) r (0 : Fin 1)) = ⨅ j : Fin 4096, tilePd v0 v2 r j := by
  unfold k0_pay2
  rw [shapeCast_ab_1ab_apply, col_keep, rowmin_apply]
  exact iInf_congr fun j => pay1_apply v0 v2 r j

set_option backward.isDefEq.respectTransparency.types false in
/-- The tile's column minima: at column `j`, the infimum of the tile's column. -/
theorem pay3_apply (j : Fin 4096) :
    k0_pay3 (F := Ideal) v0 v2 (ix2 (0 : Fin 1) j) = ⨅ r : Fin 256, tilePd v0 v2 r j := by
  unfold k0_pay3
  rw [shapeCast_a_1a_apply, colmin_apply]
  exact iInf_congr fun r => pay1_apply v0 v2 r j

/-- What the body stores at a batch's first row tile: the tile's column minima. -/
theorem pay4_apply (j : Fin 4096) :
    k0_pay4 (F := Ideal) v0 v2 (ix3 (0 : Fin 1) (0 : Fin 1) j) = ⨅ r : Fin 256, tilePd v0 v2 r j := by
  unfold k0_pay4
  rw [shapeCast_ab_1ab_apply, pay3_apply]

/-- What the body stores at a later row tile: the minimum of what the buffer held and the tile's column minima. -/
theorem pay5_apply (prev : Vec Ideal S1x1x4096 .f32) (j : Fin 4096) :
    k0_pay5 (F := Ideal) v0 v2 prev (ix3 (0 : Fin 1) (0 : Fin 1) j)
      = min (prev (ix3 (0 : Fin 1) (0 : Fin 1) j)) (⨅ r : Fin 256, tilePd v0 v2 r j) := by
  unfold k0_pay5
  rw [shapeCast_ab_1ab_apply, minimumf_apply, shapeCast_1ab_ab_apply, pay3_apply]

end Cert.KernelIdeal.TileValue

end
-- ==== Proof.ArrRows.lean ====
/-
  From blocks to arrays, first part: the array the second window stages is the host's transpose of `y`; the two input
  blocks at a point, read at an index, are entries of `x` and `y`; so the tile's entry is the squared distance of a
  global pair of points, and the array of row minima ends holding, at every (batch, point), the least squared distance
  from that point of `x`.
-/
import proofs.«160833_j1580547973964_1_alg».proof.Proof.IdealRun
import proofs.«160833_j1580547973964_1_alg».proof.Proof.TileValue
import Idealize.ShloMosaic.Lib.StableHlo.Run
import Idealize.ShloMosaic.Lib.Pipeline.Value
import Idealize.ShloMosaic.Lib.ValueLayout

set_option maxRecDepth 16384

noncomputable section

namespace Cert.KernelIdeal.ArrValue

open Cert.KernelIdeal Cert.KernelIdeal.Gen Cert.KernelIdeal.Tile Cert.KernelIdeal.TileValue Cert.PairDist
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arrays and the blocks -/

/-- The two argument arrays as launched. -/
abbrev X (c : Dev nD) : Pts.Idx → EReal := m ((c : Thread nD τ).loc main_arg0)
abbrev Y (c : Dev nD) : Pts.Idx → EReal := m ((c : Thread nD τ).loc main_arg1)

/-- The printed index maps, decided over the grid: point `t` is batch `t / 16`, row tile `t % 16`; the `x` tile and
    the row-minimum block move with both, the transposed `y` block and the column-minimum block with the batch only. -/
theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = 0 ∧ win0_1.index t (2 : Fin 3) = 0
    ∧ win0_2.index t (0 : Fin 3) = t.val / 16 ∧ win0_2.index t (1 : Fin 3) = t.val % 16 ∧ win0_2.index t (2 : Fin 3) = 0
    ∧ win0_3.index t (0 : Fin 3) = t.val / 16 ∧ win0_3.index t (1 : Fin 3) = 0 ∧ win0_3.index t (2 : Fin 3) = 0 :=
  (by decide +kernel : ∀ t : Fin grid0.N, _)

theorem N_eq : cfg0.N = 256 := N_0

/-- The batch of point `t`, and the global row of row `r` of its tile. -/
def bOf (t : Fin cfg0.N) : Fin 16 := ⟨t.val / 16, by have := t.isLt; have := N_eq; omega⟩
def rowOf (t : Fin cfg0.N) (r : Fin 256) : Fin 4096 := ⟨256 * (t.val % 16) + r.val, by have := r.isLt; omega⟩

/-- The two input blocks at point `t`, at their literal types. -/
abbrev xT (c : Dev nD) (t : Fin cfg0.N) : Vec Ideal S1x256x3 .f32 := iblk m c 0 t
abbrev yT (c : Dev nD) (t : Fin cfg0.N) : Vec Ideal S1x3x4096 .f32 := iblk m c 1 t

/-- The second window's array is the host's transpose of `y`, written before the region. -/
theorem yArr_eq (c : Dev nD) :
    (V m c main_v0 : S16x3x4096.Idx → EReal) = transpose S16x3x4096 [0, 2, 1] (Y m c) transposes_S16x4096x3_S16x3x4096_0_2_1 := by
  show StableHlo.after hostOps0 (fun b => m (c, b)) (Proc.devRef .tc main_v0) = _
  after_results

/-- Row `r`, coordinate `k` of the `x` tile is `x` at (batch, global row, `k`). -/
theorem xT_apply (c : Dev nD) (t : Fin cfg0.N) (r : Fin 256) (k : Fin 3) :
    xT m c t (ix3 (0 : Fin 1) r k) = X m c (ix3 (bOf t) (rowOf t r) k) := by
  obtain ⟨e0, e1, e2, -⟩ := idx_facts t
  show V m c main_arg0 (((cfg0.win 0).blk t).view.emb (ix3 (0 : Fin 1) r k)) = _
  rw [V_main_arg0]
  refine congrArg (X m c) (funext fun a => Fin.ext ?_)
  match a with
  | ⟨0, _⟩ => show win0_0.index t (0 : Fin 3) * 1 + 1 * 0 = t.val / 16; omega
  | ⟨1, _⟩ => show win0_0.index t (1 : Fin 3) * 256 + 1 * r.val = 256 * (t.val % 16) + r.val; omega
  | ⟨2, _⟩ => show win0_0.index t (2 : Fin 3) * 3 + 1 * k.val = k.val; omega

/-- Coordinate `k`, column `j` of the transposed block is `y` at (batch, `j`, `k`). -/
theorem yT_apply (c : Dev nD) (t : Fin cfg0.N) (k : Fin 3) (j : Fin 4096) :
    yT m c t (ix3 (0 : Fin 1) k j) = Y m c (ix3 (bOf t) j k) := by
  obtain ⟨-, -, -, e0, e1, e2, -⟩ := idx_facts t
  show V m c main_v0 (((cfg0.win 1).blk t).view.emb (ix3 (0 : Fin 1) k j)) = _
  rw [yArr_eq, ← transpose_ix3_021_apply (Y m c) transposes_S16x4096x3_S16x3x4096_0_2_1 (bOf t) k j]
  refine congrArg _ (funext fun a => Fin.ext ?_)
  match a with
  | ⟨0, _⟩ => show win0_1.index t (0 : Fin 3) * 1 + 1 * 0 = t.val / 16; omega
  | ⟨1, _⟩ => show win0_1.index t (1 : Fin 3) * 3 + 1 * k.val = k.val; omega
  | ⟨2, _⟩ => show win0_1.index t (2 : Fin 3) * 4096 + 1 * j.val = j.val; omega

/-- The tile's entry is the squared distance between the tile row's global point of `x` and point `j` of `y`. -/
theorem tile_eq (c : Dev nD) (t : Fin cfg0.N) (r : Fin 256) (j : Fin 4096) :
    tilePd (xT m c t) (yT m c t) r j = pd (X m c) (Y m c) (bOf t) (rowOf t r) j := by
  unfold tilePd pd PairDist.sq ip
  simp only [xT_apply, yT_apply]

/-! ## The row-minimum array -/

/-- What the third window's array ends holding: at (batch, point, 0) the least squared distance from that point of
    `x` to a point of `y`. -/
def G2 (c : Dev nD) : S16x4096x1.Idx → EReal := fun q => rowMin (X m c) (Y m c) (q 0) (q 1)

/-- Row `r` of point `t`'s row-minimum block sits at (batch, global row, 0) of the array. -/
theorem emb2 (t : Fin cfg0.N) (r : Fin 256) :
    ((cfg0.win 2).blk t).view.emb (ix3 (0 : Fin 1) r (0 : Fin 1)) = ix3 (bOf t) (rowOf t r) (0 : Fin 1) := by
  obtain ⟨-, -, -, -, -, -, e0, e1, e2, -⟩ := idx_facts t
  funext a; apply Fin.ext
  match a with
  | ⟨0, _⟩ => show win0_2.index t (0 : Fin 3) * 1 + 1 * 0 = t.val / 16; omega
  | ⟨1, _⟩ => show win0_2.index t (1 : Fin 3) * 256 + 1 * r.val = 256 * (t.val % 16) + r.val; omega
  | ⟨2, _⟩ => show win0_2.index t (2 : Fin 3) * 1 + 1 * 0 = 0; omega

/-- What point `t` stores for the row minima is block `t` of `G2`. -/
theorem stored2 (c : Dev nD) (t : Fin cfg0.N) (y : S1x256x1.Idx) :
    k0_pay2 (F := Ideal) (xT m c t) (yT m c t) y = G2 m c (((cfg0.win 2).blk t).view.emb y) := by
  obtain ⟨u, r, z, rfl⟩ : ∃ (u : Fin 1) (r : Fin 256) (z : Fin 1), y = ix3 u r z := ⟨y 0, y 1, y 2, eq_ix3 y⟩
  obtain rfl : u = 0 := Subsingleton.elim _ _
  obtain rfl : z = 0 := Subsingleton.elim _ _
  rw [emb2, pay2_apply]
  show _ = rowMin (X m c) (Y m c) (bOf t) (rowOf t r)
  unfold rowMin
  exact iInf_congr fun j => tile_eq m c t r j

theorem flushed2_eq (c : Dev nD) (t : Fin cfg0.N) :
    (dats m 0 c).flushed 2 t = ((cfg0.win 2).blk t).view.read (Elt Ideal) (G2 m c) := by
  show (cfg0.win 2).cut (grid0.coords t) ((dats m 0 c).after 2 t) = _
  rw [after0_2]
  funext y
  exact stored2 m c t y

/-- An index of the array is in point `t`'s block iff each coordinate is in the block's range on its axis. -/
theorem mem_blk2 (t : Fin cfg0.N) (i : S16x4096x1.Idx) :
    i ∈ ((cfg0.win 2).blk t).view.set ↔ ∀ a : Fin 3, win0_2.index t a * S1x256x1.size a ≤ (i a).val ∧ (i a).val < win0_2.index t a * S1x256x1.size a + S1x256x1.size a := by
  show i ∈ ((View.whole main_v1_0).slice (win0_2.rect t)).set ↔ _
  rw [View.set_slice_whole, Rect.mem_set_unit]
  exact Iff.rfl

/-- Every point writes its block back and the blocks tile the array: it ends holding `G2`. -/
theorem final2 (c : Dev nD) : (dats m 0 c).arrAt 2 cfg0.N = G2 m c :=
  (dats m 0 c).arrAt_eq_of_cover 2 (G2 m c) (fun t _ => flushed2_eq m c t) fun i => by
    have h0 : (i 0).val < 16 := (i 0).isLt
    have h1 : (i 1).val < 4096 := (i 1).isLt
    have h2 : (i 2).val < 1 := (i 2).isLt
    have hN := N_eq
    obtain ⟨t, ht⟩ : ∃ t : Fin cfg0.N, t.val = 16 * (i 0).val + (i 1).val / 256 := ⟨⟨16 * (i 0).val + (i 1).val / 256, by omega⟩, rfl⟩
    obtain ⟨-, -, -, -, -, -, e0, e1, e2, -⟩ := idx_facts t
    refine ⟨t, flush0_2 t, ?_⟩
    rw [mem_blk2]
    intro a
    match a with
    | ⟨0, _⟩ => show win0_2.index t (0 : Fin 3) * 1 ≤ (i 0).val ∧ (i 0).val < win0_2.index t (0 : Fin 3) * 1 + 1; omega
    | ⟨1, _⟩ => show win0_2.index t (1 : Fin 3) * 256 ≤ (i 1).val ∧ (i 1).val < win0_2.index t (1 : Fin 3) * 256 + 256; omega
    | ⟨2, _⟩ => show win0_2.index t (2 : Fin 3) * 1 ≤ (i 2).val ∧ (i 2).val < win0_2.index t (2 : Fin 3) * 1 + 1; omega

end Cert.KernelIdeal.ArrValue

end
-- ==== Proof.ArrCols.lean ====
/-
  From blocks to arrays, second part: the carried column-minimum buffer. Its contents after each point have, at every
  column, exactly the lower bounds of the squared distances from the points of `x` seen so far in the batch; so after a
  batch's last row tile it holds the batch's column minima, which is what is written back, and the array of column
  minima ends holding, at every (batch, point), the least squared distance from that point of `y`.
-/
import proofs.«160833_j1580547973964_1_alg».proof.Proof.ArrRows
import Idealize.ShloMosaic.Lib.StableHlo.Run
import Idealize.ShloMosaic.Lib.Pipeline.Value
import Idealize.ShloMosaic.Lib.ValueLayout

set_option maxRecDepth 16384

noncomputable section

namespace Cert.KernelIdeal.ArrValue

open Cert.KernelIdeal Cert.KernelIdeal.Gen Cert.KernelIdeal.Tile Cert.KernelIdeal.TileValue Cert.PairDist
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The column-minimum array -/

/-- What the fourth window's array ends holding: at (batch, 0, point) the least squared distance from that point of
    `y` to a point of `x`. -/
def G3 (c : Dev nD) : S16x1x4096.Idx → EReal := fun q => colMin (X m c) (Y m c) (q 0) (q 2)

/-- The lower bounds of one tile's column minimum at column `j`: those of the squared distances from the tile's 256
    global rows. -/
theorem tile_le_iff (c : Dev nD) (t : Fin cfg0.N) (j : Fin 4096) (z : EReal) :
    z ≤ (⨅ r : Fin 256, tilePd (xT m c t) (yT m c t) r j)
      ↔ ∀ i : Fin 4096, 256 * (t.val % 16) ≤ i.val → i.val < 256 * (t.val % 16 + 1) → z ≤ pd (X m c) (Y m c) (bOf t) i j := by
  rw [le_iInf_iff]
  constructor
  · intro h i h1 h2
    have hr := h ⟨i.val - 256 * (t.val % 16), by omega⟩
    rw [tile_eq] at hr
    have e : rowOf t ⟨i.val - 256 * (t.val % 16), by omega⟩ = i :=
      Fin.ext (by show 256 * (t.val % 16) + (i.val - 256 * (t.val % 16)) = i.val; omega)
    rwa [e] at hr
  · intro h r
    rw [tile_eq]
    have hr := r.isLt
    exact h _ (by show 256 * (t.val % 16) ≤ 256 * (t.val % 16) + r.val; omega)
      (by show 256 * (t.val % 16) + r.val < 256 * (t.val % 16 + 1); omega)

/-- THE RUNNING MINIMUM. After the body at position `n` — row tile `n % 16` of batch `n / 16` — the carried buffer's
    entry at column `j` has exactly the lower bounds of the squared distances from the batch's first
    `256 · (n % 16 + 1)` points of `x`: by induction on the position, a batch's first row tile starting afresh and
    every later one taking the minimum with what the position before left. -/
theorem colAt_le_iff (c : Dev nD) (j : Fin 4096) (z : EReal) : ∀ (n : ℕ) (hn : n < cfg0.N),
    z ≤ colAt m c n hn (ix3 (0 : Fin 1) (0 : Fin 1) j)
      ↔ ∀ i : Fin 4096, i.val < 256 * (n % 16 + 1) → z ≤ pd (X m c) (Y m c) (bOf ⟨n, hn⟩) i j
  | 0, hn => by
    show z ≤ k0_pay4 (F := Ideal) (xT m c ⟨0, hn⟩) (yT m c ⟨0, hn⟩) (ix3 (0 : Fin 1) (0 : Fin 1) j) ↔ _
    rw [pay4_apply, tile_le_iff]
    constructor
    · intro h i hi; exact h i (by show 256 * (0 % 16) ≤ i.val; omega) (by show i.val < 256 * (0 % 16 + 1); omega)
    · intro h i _ h2; exact h i h2
  | n + 1, hn => by
    by_cases h0 : (n + 1) % 16 = 0
    · rw [colAt_first m c ⟨n + 1, hn⟩ h0]
      show z ≤ k0_pay4 (F := Ideal) (xT m c ⟨n + 1, hn⟩) (yT m c ⟨n + 1, hn⟩) (ix3 (0 : Fin 1) (0 : Fin 1) j) ↔ _
      rw [pay4_apply, tile_le_iff]
      constructor
      · intro h i hi
        exact h i (by show 256 * ((n + 1) % 16) ≤ i.val; omega) (by show i.val < 256 * ((n + 1) % 16 + 1); omega)
      · intro h i _ h2; exact h i h2
    · rw [colAt_later m c ⟨n + 1, hn⟩ h0]
      show z ≤ k0_pay5 (F := Ideal) (xT m c ⟨n + 1, hn⟩) (yT m c ⟨n + 1, hn⟩) (colAt m c n (Nat.lt_of_succ_lt hn))
        (ix3 (0 : Fin 1) (0 : Fin 1) j) ↔ _
      rw [pay5_apply, le_min_iff, tile_le_iff, colAt_le_iff c j z n (Nat.lt_of_succ_lt hn)]
      have hb : bOf ⟨n, Nat.lt_of_succ_lt hn⟩ = bOf ⟨n + 1, hn⟩ := Fin.ext (by show n / 16 = (n + 1) / 16; omega)
      rw [hb]
      constructor
      · rintro ⟨h1, h2⟩ i hi
        by_cases hlt : i.val < 256 * (n % 16 + 1)
        · exact h1 i hlt
        · exact h2 i (by show 256 * ((n + 1) % 16) ≤ i.val; omega) (by show i.val < 256 * ((n + 1) % 16 + 1); omega)
      · intro h
        exact ⟨fun i hi => h i (by omega), fun i _ h2 => h i h2⟩

/-- Column `j` of point `t`'s column-minimum block sits at (batch, 0, `j`) of the array. -/
theorem emb3 (t : Fin cfg0.N) (j : Fin 4096) :
    ((cfg0.win 3).blk t).view.emb (ix3 (0 : Fin 1) (0 : Fin 1) j) = ix3 (bOf t) (0 : Fin 1) j := by
  obtain ⟨-, -, -, -, -, -, -, -, -, e0, e1, e2⟩ := idx_facts t
  funext a; apply Fin.ext
  match a with
  | ⟨0, _⟩ => show win0_3.index t (0 : Fin 3) * 1 + 1 * 0 = t.val / 16; omega
  | ⟨1, _⟩ => show win0_3.index t (1 : Fin 3) * 1 + 1 * 0 = 0; omega
  | ⟨2, _⟩ => show win0_3.index t (2 : Fin 3) * 4096 + 1 * j.val = j.val; omega

/-- After a batch's last row tile the carried buffer is the batch's block of `G3`: all 4096 points of `x` are in. -/
theorem stored3 (c : Dev nD) (t : Fin cfg0.N) (hl : t.val % 16 = 15) (y : S1x1x4096.Idx) :
    colAt m c t.val t.isLt y = G3 m c (((cfg0.win 3).blk t).view.emb y) := by
  obtain ⟨u, w, j, rfl⟩ : ∃ (u : Fin 1) (w : Fin 1) (j : Fin 4096), y = ix3 u w j := ⟨y 0, y 1, y 2, eq_ix3 y⟩
  obtain rfl : u = 0 := Subsingleton.elim _ _
  obtain rfl : w = 0 := Subsingleton.elim _ _
  rw [emb3]
  show _ = colMin (X m c) (Y m c) (bOf t) j
  unfold colMin
  refine eq_of_forall_le_iff fun z => ?_
  rw [colAt_le_iff m c j z t.val t.isLt, le_iInf_iff]
  constructor
  · intro h i; exact h i (by have := i.isLt; omega)
  · intro h i _; exact h i

theorem flushed3_eq (c : Dev nD) (t : Fin cfg0.N) (hf : (cfg0.win 3).flush t = true) :
    (dats m 0 c).flushed 3 t = ((cfg0.win 3).blk t).view.read (Elt Ideal) (G3 m c) := by
  show (cfg0.win 3).cut (grid0.coords t) ((dats m 0 c).after 3 t) = _
  rw [after0_3]
  funext y
  exact stored3 m c t ((flush0_3 t).mp hf) y

theorem mem_blk3 (t : Fin cfg0.N) (i : S16x1x4096.Idx) :
    i ∈ ((cfg0.win 3).blk t).view.set ↔ ∀ a : Fin 3, win0_3.index t a * S1x1x4096.size a ≤ (i a).val ∧ (i a).val < win0_3.index t a * S1x1x4096.size a + S1x1x4096.size a := by
  show i ∈ ((View.whole main_v1_1).slice (win0_3.rect t)).set ↔ _
  rw [View.set_slice_whole, Rect.mem_set_unit]
  exact Iff.rfl

/-- The last row tile of every batch writes the batch's block back, and those blocks tile the array. -/
theorem final3 (c : Dev nD) : (dats m 0 c).arrAt 3 cfg0.N = G3 m c :=
  (dats m 0 c).arrAt_eq_of_cover 3 (G3 m c) (fun t hf => flushed3_eq m c t hf) fun i => by
    have h0 : (i 0).val < 16 := (i 0).isLt
    have h1 : (i 1).val < 1 := (i 1).isLt
    have h2 : (i 2).val < 4096 := (i 2).isLt
    have hN := N_eq
    obtain ⟨t, ht⟩ : ∃ t : Fin cfg0.N, t.val = 16 * (i 0).val + 15 := ⟨⟨16 * (i 0).val + 15, by omega⟩, rfl⟩
    obtain ⟨-, -, -, -, -, -, -, -, -, e0, e1, e2⟩ := idx_facts t
    refine ⟨t, (flush0_3 t).mpr (by omega), ?_⟩
    rw [mem_blk3]
    intro a
    match a with
    | ⟨0, _⟩ => show win0_3.index t (0 : Fin 3) * 1 ≤ (i 0).val ∧ (i 0).val < win0_3.index t (0 : Fin 3) * 1 + 1; omega
    | ⟨1, _⟩ => show win0_3.index t (1 : Fin 3) * 1 ≤ (i 1).val ∧ (i 1).val < win0_3.index t (1 : Fin 3) * 1 + 1; omega
    | ⟨2, _⟩ => show win0_3.index t (2 : Fin 3) * 4096 ≤ (i 2).val ∧ (i 2).val < win0_3.index t (2 : Fin 3) * 4096 + 4096; omega

end Cert.KernelIdeal.ArrValue

end
-- ==== Proof.KernelResult.lean ====
/-
  The kernel's program, read to the end: the host operations after the region drop the two arrays' unit axes, take
  each array's mean and add the two means — the shared tail of the column minima and the row minima.
-/
import proofs.«160833_j1580547973964_1_alg».proof.Proof.ArrCols
import Idealize.ShloMosaic.Lib.StableHlo.Run
import Idealize.ShloMosaic.Lib.Pipeline.Value
import Idealize.ShloMosaic.Lib.ValueLayout

set_option maxRecDepth 16384

noncomputable section

namespace Cert.KernelIdeal.ArrValue

open Cert.KernelIdeal Cert.KernelIdeal.Gen Cert.KernelIdeal.Tile Cert.KernelIdeal.TileValue Cert.PairDist
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The host operations after the region, and the run -/

section Casts
variable {α : Type}

/-- An [a, b, 1] array cast to [a, b] reads, at (p, q), the operand at (p, q, 0). -/
theorem cast_ab1_ab {a b : ℕ} (x : (⟨3, ![a, b, 1]⟩ : Shape).Idx → α) (h : (⟨3, ![a, b, 1]⟩ : Shape).ShapeCasts ⟨2, ![a, b]⟩)
    (p : Fin a) (q : Fin b) : shapeCast ⟨2, ![a, b]⟩ x h (ix2 p q) = x (ix3 p q (0 : Fin 1)) :=
  shapeCast_apply x h _ _ (by
    rw [Shape.rowMajor_val_three, Shape.rowMajor_val_two]
    show (p.val * b + q.val) * 1 + 0 = p.val * b + q.val
    rw [Nat.mul_one, Nat.add_zero])

/-- An [a, 1, b] array cast to [a, b] reads, at (p, q), the operand at (p, 0, q). -/
theorem cast_a1b_ab {a b : ℕ} (x : (⟨3, ![a, 1, b]⟩ : Shape).Idx → α) (h : (⟨3, ![a, 1, b]⟩ : Shape).ShapeCasts ⟨2, ![a, b]⟩)
    (p : Fin a) (q : Fin b) : shapeCast ⟨2, ![a, b]⟩ x h (ix2 p q) = x (ix3 p (0 : Fin 1) q) :=
  shapeCast_apply x h _ _ (by
    rw [Shape.rowMajor_val_three, Shape.rowMajor_val_two]
    show (p.val * 1 + 0) * b + q.val = p.val * b + q.val
    rw [Nat.mul_one, Nat.add_zero])

end Casts

/-- The column-minimum array as the later host operations find it, with its unit axis dropped. -/
theorem colArr_eq (c : Dev nD) :
    shapeCast S16x4096 (Pipeline.withArrays (cfgs 0).spec c (V0 m c) (fun w => (dats m 0 c).arrAt w (cfgs 0).N) (Proc.devRef .tc main_v1_1))
      shapeCasts_S16x1x4096_S16x4096 = colMinArr (X m c) (Y m c) := by
  have e : Pipeline.withArrays (cfgs 0).spec c (V0 m c) (fun w => (dats m 0 c).arrAt w (cfgs 0).N) (Proc.devRef .tc main_v1_1) = G3 m c :=
    (Pipeline.withArrays_arr spec0 launch0.win.arr_inj c _ _ 3).trans (final3 m c)
  rw [e]
  funext q
  rw [eq_ix2 q]
  exact cast_a1b_ab (G3 m c) _ (q 0) (q 1)

/-- The row-minimum array likewise. -/
theorem rowArr_eq (c : Dev nD) :
    shapeCast S16x4096 (Pipeline.withArrays (cfgs 0).spec c (V0 m c) (fun w => (dats m 0 c).arrAt w (cfgs 0).N) (Proc.devRef .tc main_v1_0))
      shapeCasts_S16x4096x1_S16x4096 = rowMinArr (X m c) (Y m c) := by
  have e : Pipeline.withArrays (cfgs 0).spec c (V0 m c) (fun w => (dats m 0 c).arrAt w (cfgs 0).N) (Proc.devRef .tc main_v1_0) = G2 m c :=
    (Pipeline.withArrays_arr spec0 launch0.win.arr_inj c _ _ 2).trans (final2 m c)
  rw [e]
  funext q
  rw [eq_ix2 q]
  exact cast_ab1_ab (G2 m c) _ (q 0) (q 1)

/-- The result buffer after the host operations that follow the region: the shared tail of the two arrays. -/
theorem tail_eq (c : Dev nD) :
    Pipeline.afterTail₀ cfgs (dats m) 0 (V0 m) [hostOps1] c main_v8
      = lossOf reducesTo_S16x4096_S_d0_1 h_S_ (colMinArr (X m c) (Y m c)) (rowMinArr (X m c) (Y m c)) := by
  unfold Pipeline.afterTail₀
  show StableHlo.after hostOps1 _ (Proc.devRef .tc main_v8) = _
  after_results
  show lossOf reducesTo_S16x4096_S_d0_1 h_S_
      (shapeCast S16x4096 (Pipeline.withArrays (cfgs 0).spec c (V0 m c) (fun w => (dats m 0 c).arrAt w (cfgs 0).N) (Proc.devRef .tc main_v1_1))
        shapeCasts_S16x1x4096_S16x4096)
      (shapeCast S16x4096 (Pipeline.withArrays (cfgs 0).spec c (V0 m c) (fun w => (dats m 0 c).arrAt w (cfgs 0).N) (Proc.devRef .tc main_v1_0))
        shapeCasts_S16x4096x1_S16x4096) = _
  rw [colArr_eq, rowArr_eq]

/-- The run, read: the result at the shared tail of the column minima and the row minima of the launched arrays, both
    arguments unchanged. -/
theorem run : θ_run defs (onTc (τ := τ) (main (F := Ideal))) ⟨m, fun _ => 0, ρ⟩ fun r => ∀ c : Dev nD,
      r.2.mem ((c : Thread nD τ).loc main_v8)
        = lossOf reducesTo_S16x4096_S_d0_1 h_S_ (colMinArr (X m c) (Y m c)) (rowMinArr (X m c) (Y m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v8 (Pipeline.mem_restRefs_of main_v8 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.ArrValue

end
-- ==== Proof.RefValue.lean ====
/-
  The reference, read at the extended reals: its distance array at an index is the squared distance, its two
  min-reductions are the two infima, and its result is the shared tail of those two arrays.
-/
import proofs.«160833_j1580547973964_1_alg».proof.Proof.Gen.ReferenceIdeal.Read
import proofs.«160833_j1580547973964_1_alg».proof.Proof.PairDist

noncomputable section

namespace Cert.ReferenceIdeal.RefValue

open Cert.ReferenceIdeal Cert.ReferenceIdeal.Gen Cert.ReferenceIdeal.Read Cert.PairDist
open Idealize.ShloMosaic Idealize.ShloMosaic.TcCoe Idealize.ShloMosaic.ValueIdx

variable (x0 x1 : (⟨S16x4096x3, .f32⟩ : BufTy).Contents (Elt Ideal))

/-- The distance array at (batch, i, j): both norms are the host's sums from the zero word, the product term the
    host's contraction over the coordinate axis, scaled by the word for 2. -/
theorem dist_apply (b : Fin 16) (i j : Fin 4096) :
    val_main_v12 (F := Ideal) x0 x1 (ix3 b i j) = pd x0 x1 b i j := by
  rw [val_main_v12_apply, val_main_v9_apply, val_main_v11_apply, val_main_v7_apply, val_main_v8_apply, val_main_v5_apply,
    val_main_v6_apply, val_main_v1_apply, val_main_v3_apply, val_main_v10_apply, val_main_v4_apply]
  simp only [val_main_v0_apply, val_main_v2_apply, val_main_cst_apply, val_main_cst_0_apply, val_main_cst_1_apply]
  have e1 : ∀ k, idx_main_v1 (idx_main_v5 (idx_main_v7 (ix3 b i j))) k = ix3 b i k := fun k =>
    funext fun a => Fin.ext (by match a with | ⟨0, _⟩ => rfl | ⟨1, _⟩ => rfl | ⟨2, _⟩ => rfl)
  have e2 : ∀ k, idx_main_v3 (idx_main_v6 (idx_main_v8 (ix3 b i j))) k = ix3 b j k := fun k =>
    funext fun a => Fin.ext (by match a with | ⟨0, _⟩ => rfl | ⟨1, _⟩ => rfl | ⟨2, _⟩ => rfl)
  have e3 : ∀ k, lidx_main_v4 (ix3 b i j) k = ix3 b i k := fun k =>
    funext fun a => Fin.ext (by match a with | ⟨0, _⟩ => rfl | ⟨1, _⟩ => rfl | ⟨2, _⟩ => rfl)
  have e4 : ∀ k, ridx_main_v4 (ix3 b i j) k = ix3 b j k := fun k =>
    funext fun a => Fin.ext (by match a with | ⟨0, _⟩ => rfl | ⟨1, _⟩ => rfl | ⟨2, _⟩ => rfl)
  simp only [e1, e2, e3, e4, Ideal.ofBits_def, Ideal.ofBits_zero_f32, zero_add]
  rfl

/-- The minimum over the `x` points (axis 1 of the distance array), at (batch, j). -/
theorem colmin_apply (b : Fin 16) (j : Fin 4096) :
    val_main_v13 (F := Ideal) x0 x1 (ix2 b j) = colMin x0 x1 b j := by
  have h : S16x4096x4096.Reduces [1] S16x4096 := by decide
  unfold val_main_v13 colMin
  rw [Host.reduce_eq_fold_single (FloatOps.minimumf (F := Ideal) (φ := .f32)) _ _ reducesTo_S16x4096x4096_S16x4096_d1 h h_S_]
  show Finset.fold min (Ideal.ofBits .f32 0x7F800000#32) _ Finset.univ = _
  rw [top_word, fold_min_top]
  refine iInf_congr fun k => ?_
  show val_main_v12 (F := Ideal) x0 x1 (h.lift (ix2 b j) k) = _
  rw [← dist_apply x0 x1 b k j]
  exact congrArg _ (funext fun a => Fin.ext (by match a with | ⟨0, _⟩ => rfl | ⟨1, _⟩ => rfl | ⟨2, _⟩ => rfl))

/-- The minimum over the `y` points (axis 2 of the distance array), at (batch, i). -/
theorem rowmin_apply (b : Fin 16) (i : Fin 4096) :
    val_main_v16 (F := Ideal) x0 x1 (ix2 b i) = rowMin x0 x1 b i := by
  have h : S16x4096x4096.Reduces [2] S16x4096 := by decide
  unfold val_main_v16 rowMin
  rw [Host.reduce_eq_fold_single (FloatOps.minimumf (F := Ideal) (φ := .f32)) _ _ reducesTo_S16x4096x4096_S16x4096_d2 h h_S_]
  show Finset.fold min (Ideal.ofBits .f32 0x7F800000#32) _ Finset.univ = _
  rw [top_word, fold_min_top]
  refine iInf_congr fun k => ?_
  show val_main_v12 (F := Ideal) x0 x1 (h.lift (ix2 b i) k) = _
  rw [← dist_apply x0 x1 b i k]
  exact congrArg _ (funext fun a => Fin.ext (by match a with | ⟨0, _⟩ => rfl | ⟨1, _⟩ => rfl | ⟨2, _⟩ => rfl))

theorem colmin_eq : val_main_v13 (F := Ideal) x0 x1 = colMinArr x0 x1 :=
  funext fun q => by rw [eq_ix2 q]; exact colmin_apply x0 x1 _ _

theorem rowmin_eq : val_main_v16 (F := Ideal) x0 x1 = rowMinArr x0 x1 :=
  funext fun q => by rw [eq_ix2 q]; exact rowmin_apply x0 x1 _ _

/-- The reference's result: the shared tail of the column minima and the row minima. -/
theorem result_eq : val_main_v19 (F := Ideal) x0 x1
    = lossOf reducesTo_S16x4096_S_d0_1 h_S_ (colMinArr x0 x1) (rowMinArr x0 x1) := by
  unfold val_main_v19 val_main_v15 val_main_v18 val_main_v14 val_main_v17
  rw [colmin_eq, rowmin_eq]
  rfl

end Cert.ReferenceIdeal.RefValue

end
-- ==== Proof.lean ====
/-
  Mean nearest-neighbour squared distance between two point sets, both ways, over the extended reals.

  Inputs `x`, `y` : [16, 4096, 3]. With d(b, i, j) = |x_i|² + |y_j|² − 2·⟨x_i, y_j⟩ in batch `b`, both programs return
      mean over (b, j) of min_i d(b, i, j)  +  mean over (b, i) of min_j d(b, i, j).
  The reference builds the whole [16, 4096, 4096] array of distances on the host and reduces it twice. The kernel
  never builds it: a grid point forms one 256 x 4096 tile, takes the tile's row minima (complete, since a tile holds
  all 4096 columns) and merges the tile's column minima into a buffer carried across the batch's 16 row tiles.
  At the extended reals the two agree because a minimum over 4096 rows is the minimum over 16 tiles of the minimum
  over each tile's 256 rows: a fact about lower bounds, which needs no finiteness of the inputs. Everything after the
  two arrays of minima is the same host computation on both sides and is carried as one function.

  The three frames: the kernel's body is run once for each of its two control cases (a batch's first row tile, a later
  one) for any float instance, and the pipeline's launch carries it over the grid; the reference is a straight line of
  host operations. The idealization rewrote nothing, so `preserves` is `True`.
-/
import proofs.«160833_j1580547973964_1_alg».proof.Defs
import proofs.«160833_j1580547973964_1_alg».proof.Proof.Gen.Kernel
import proofs.«160833_j1580547973964_1_alg».proof.Proof.Gen.KernelIdeal
import proofs.«160833_j1580547973964_1_alg».proof.Proof.Gen.ReferenceIdeal
import proofs.«160833_j1580547973964_1_alg».proof.Proof.Gen.Pre_finite_inputs
import proofs.«160833_j1580547973964_1_alg».proof.Proof.Gen.ReferenceIdeal.Run
import proofs.«160833_j1580547973964_1_alg».proof.Proof.Gen.ReferenceIdeal.Read
import proofs.«160833_j1580547973964_1_alg».proof.Proof.BitsRun
import proofs.«160833_j1580547973964_1_alg».proof.Proof.KernelResult
import proofs.«160833_j1580547973964_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Tile.frame m ρ

theorem frame_ki : Cert.frame_KernelIdeal := fun m ρ _ => Cert.KernelIdeal.Tile.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the shared tail of the column minima and the row minima of the same arrays. -/
theorem algebraic : Cert.algebraic_KernelIdeal_ReferenceIdeal := by
  intro m ρ m' ρ' _ hagree
  refine ⟨_, Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v19_eq _ _).trans (Cert.ReferenceIdeal.RefValue.result_eq _ _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
